-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x1x96x160x160 : Shape := ⟨5, ![8, 1, 96, 160, 160]⟩
abbrev S_ : Shape := ⟨0, ![]⟩

class Facts : Prop where
  bcast_S_S8x1x96x160x160 : S_.BroadcastsInDim S8x1x96x160x160 (![] : Fin 0 → Fin S8x1x96x160x160.rank)
  reducesTo_S8x1x96x160x160_S_d0_1_2_3_4 : S8x1x96x160x160.ReducesTo [0, 1, 2, 3, 4] S_
  h_S_ : 0 < S_.numel

variable [Facts]

def fn {F : FTy → Type} [FloatOps F] (main_arg0 : FVec F S8x1x96x160x160 .f32) (main_arg1 : FVec F S8x1x96x160x160 .f32) : IVec S_ 1 :=
  let main_v0 : FVec F S8x1x96x160x160 .f32 := Host.absf main_arg0
  let main_cst : FVec F S_ .f32 := constant S_ .f32 0x7F800000#32
  let main_v1 : FVec F S8x1x96x160x160 .f32 := broadcastInDim S8x1x96x160x160 ![] bcast_S_S8x1x96x160x160 main_cst
  let main_v2 : IVec S8x1x96x160x160 1 := cmpf .olt main_v0 main_v1
  let main_c : IVec S_ 1 := constantI S_ 1 1#1
  let main_v3 : IVec S_ 1 := (fun x v => Host.reduce IntOp.andi x v reducesTo_S8x1x96x160x160_S_d0_1_2_3_4 h_S_) main_v2 main_c
  let main_v4 : FVec F S8x1x96x160x160 .f32 := Host.absf main_arg1
  let main_cst_0 : FVec F S_ .f32 := constant S_ .f32 0x7F800000#32
  let main_v5 : FVec F S8x1x96x160x160 .f32 := broadcastInDim S8x1x96x160x160 ![] bcast_S_S8x1x96x160x160 main_cst_0
  let main_v6 : IVec S8x1x96x160x160 1 := cmpf .olt main_v4 main_v5
  let main_c_1 : IVec S_ 1 := constantI S_ 1 1#1
  let main_v7 : IVec S_ 1 := (fun x v => Host.reduce IntOp.andi x v reducesTo_S8x1x96x160x160_S_d0_1_2_3_4 h_S_) main_v6 main_c_1
  let main_v8 : IVec S_ 1 := andi main_v3 main_v7
  main_v8
-- ==== Kernel.lean ====
abbrev S8x1x96x160x160 : Shape := ⟨5, ![8, 1, 96, 160, 160]⟩
abbrev S2x76800x128 : Shape := ⟨3, ![2, 76800, 128]⟩
abbrev S2x8x128 : Shape := ⟨3, ![2, 8, 128]⟩
abbrev S1x4800x128 : Shape := ⟨3, ![1, 4800, 128]⟩
abbrev S1x8x128 : Shape := ⟨3, ![1, 8, 128]⟩
abbrev S8x128 : Shape := ⟨2, ![8, 128]⟩
abbrev S4800x128 : Shape := ⟨2, ![4800, 128]⟩
abbrev S600x8x128 : Shape := ⟨3, ![600, 8, 128]⟩
abbrev S_ : Shape := ⟨0, ![]⟩

abbrev nBuf : Space → Nat
  | .hbm => 9
  | .vmem => 6
  | .smem => 0
  | _ => 0

abbrev bufTy : (tb : Table) → Fin (tcTables nBuf tb) → BufTy
  | .hbm, ⟨0, _⟩ => ⟨S8x1x96x160x160, .f32⟩
  | .hbm, ⟨1, _⟩ => ⟨S8x1x96x160x160, .f32⟩
  | .hbm, ⟨2, _⟩ => ⟨S2x76800x128, .f32⟩
  | .hbm, ⟨3, _⟩ => ⟨S2x76800x128, .f32⟩
  | .hbm, ⟨4, _⟩ => ⟨S2x8x128, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .local _ .vmem, ⟨0, _⟩ => ⟨S1x4800x128, .f32⟩
  | .local _ .vmem, ⟨1, _⟩ => ⟨S1x4800x128, .f32⟩
  | .local _ .vmem, ⟨2, _⟩ => ⟨S1x4800x128, .f32⟩
  | .local _ .vmem, ⟨3, _⟩ => ⟨S1x4800x128, .f32⟩
  | .local _ .vmem, ⟨4, _⟩ => ⟨S1x8x128, .f32⟩
  | .local _ .vmem, ⟨5, _⟩ => ⟨S1x8x128, .f32⟩
  | _, _ => ⟨S8x1x96x160x160, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x4800x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x4800x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x8x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  shapeCasts_S8x1x96x160x160_S2x76800x128 : S8x1x96x160x160.ShapeCasts S2x76800x128
  inb_S1x8x128_S1x8x128_0_0_0 : ∀ a, (![0, 0, 0] : Fin 3 → Nat) a + S1x8x128.size a ≤ S1x8x128.size a
  h_S1x8x128 : 0 < S1x8x128.numel
  shapeCasts_S1x8x128_S8x128 : S1x8x128.ShapeCasts S8x128
  shapeCasts_S8x128_S1x8x128 : S8x128.ShapeCasts S1x8x128
  inb_S1x4800x128_S1x4800x128_0_0_0 : ∀ a, (![0, 0, 0] : Fin 3 → Nat) a + S1x4800x128.size a ≤ S1x4800x128.size a
  h_S1x4800x128 : 0 < S1x4800x128.numel
  shapeCasts_S1x4800x128_S4800x128 : S1x4800x128.ShapeCasts S4800x128
  natLt_1_32 : 1 < 32
  shapeCasts_S4800x128_S600x8x128 : S4800x128.ShapeCasts S600x8x128
  reduces_S600x8x128_S8x128 : S600x8x128.Reduces [0] S8x128
  reducesTo_S2x8x128_S_d0_1_2 : S2x8x128.ReducesTo [0, 1, 2] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x4800x128.size a ≤ S2x76800x128.size a
  hwx0_0 : ∀ i : grid0.Coords, EltTy.bits .f32 = 32 ∨ (Rect.block (s := S2x76800x128) S1x4800x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x4800x128.size a ≤ S2x76800x128.size a
  hwx0_1 : ∀ i : grid0.Coords, EltTy.bits .f32 = 32 ∨ (Rect.block (s := S2x76800x128) S1x4800x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x8x128.size a ≤ S2x8x128.size a
  hwx0_2 : ∀ i : grid0.Coords, EltTy.bits .f32 = 32 ∨ (Rect.block (s := S2x8x128) S1x8x128.size (cc0_transform_2 i) (hinb0_2 i)).WholeWords (EltTy.packing .f32)

variable [Facts₀]

abbrev win0_0 : Pipeline.Window sig grid0 :=
  Pipeline.Window.ofSpec (Memref.whole main_v0) S1x4800x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x4800x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x8x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8x1x96x160x160 : Shape := ⟨5, ![8, 1, 96, 160, 160]⟩
abbrev S_ : Shape := ⟨0, ![]⟩

abbrev nBuf : Space → Nat
  | .hbm => 46
  | .vmem => 0
  | .smem => 0
  | _ => 0

abbrev bufTy : (tb : Table) → Fin (tcTables nBuf tb) → BufTy
  | .hbm, ⟨0, _⟩ => ⟨S8x1x96x160x160, .f32⟩
  | .hbm, ⟨1, _⟩ => ⟨S8x1x96x160x160, .f32⟩
  | .hbm, ⟨2, _⟩ => ⟨S8x1x96x160x160, .f32⟩
  | .hbm, ⟨3, _⟩ => ⟨S8x1x96x160x160, .f32⟩
  | .hbm, ⟨4, _⟩ => ⟨S_, .f32⟩
  | .hbm, ⟨5, _⟩ => ⟨S8x1x96x160x160, .f32⟩
  | .hbm, ⟨6, _⟩ => ⟨S8x1x96x160x160, .f32⟩
  | .hbm, ⟨7, _⟩ => ⟨S_, .f32⟩
  | .hbm, ⟨8, _⟩ => ⟨S8x1x96x160x160, .f32⟩
  | .hbm, ⟨9, _⟩ => ⟨S8x1x96x160x160, .f32⟩
  | .hbm, ⟨10, _⟩ => ⟨S_, .f32⟩
  | .hbm, ⟨11, _⟩ => ⟨S8x1x96x160x160, .f32⟩
  | .hbm, ⟨12, _⟩ => ⟨S8x1x96x160x160, .i1⟩
  | .hbm, ⟨13, _⟩ => ⟨S_, .f32⟩
  | .hbm, ⟨14, _⟩ => ⟨S8x1x96x160x160, .f32⟩
  | .hbm, ⟨15, _⟩ => ⟨S8x1x96x160x160, .i1⟩
  | .hbm, ⟨16, _⟩ => ⟨S8x1x96x160x160, .i1⟩
  | .hbm, ⟨17, _⟩ => ⟨S8x1x96x160x160, .i1⟩
  | .hbm, ⟨18, _⟩ => ⟨S8x1x96x160x160, .f32⟩
  | .hbm, ⟨19, _⟩ => ⟨S8x1x96x160x160, .i1⟩
  | .hbm, ⟨20, _⟩ => ⟨S8x1x96x160x160, .i1⟩
  | .hbm, ⟨21, _⟩ => ⟨S8x1x96x160x160, .f32⟩
  | .hbm, ⟨22, _⟩ => ⟨S_, .f32⟩
  | .hbm, ⟨23, _⟩ => ⟨S8x1x96x160x160, .f32⟩
  | .hbm, ⟨24, _⟩ => ⟨S8x1x96x160x160, .f32⟩
  | .hbm, ⟨25, _⟩ => ⟨S8x1x96x160x160, .f32⟩
  | .hbm, ⟨26, _⟩ => ⟨S8x1x96x160x160, .f32⟩
  | .hbm, ⟨27, _⟩ => ⟨S8x1x96x160x160, .f32⟩
  | .hbm, ⟨28, _⟩ => ⟨S8x1x96x160x160, .f32⟩
  | .hbm, ⟨29, _⟩ => ⟨S8x1x96x160x160, .f32⟩
  | .hbm, ⟨30, _⟩ => ⟨S8x1x96x160x160, .f32⟩
  | .hbm, ⟨31, _⟩ => ⟨S8x1x96x160x160, .f32⟩
  | .hbm, ⟨32, _⟩ => ⟨S_, .f32⟩
  | .hbm, ⟨33, _⟩ => ⟨S8x1x96x160x160, .f32⟩
  | .hbm, ⟨34, _⟩ => ⟨S8x1x96x160x160, .f32⟩
  | .hbm, ⟨35, _⟩ => ⟨S8x1x96x160x160, .f32⟩
  | .hbm, ⟨36, _⟩ => ⟨S8x1x96x160x160, .f32⟩
  | .hbm, ⟨37, _⟩ => ⟨S_, .f32⟩
  | .hbm, ⟨38, _⟩ => ⟨S8x1x96x160x160, .f32⟩
  | .hbm, ⟨39, _⟩ => ⟨S8x1x96x160x160, .f32⟩
  | .hbm, ⟨40, _⟩ => ⟨S8x1x96x160x160, .f32⟩
  | .hbm, ⟨41, _⟩ => ⟨S8x1x96x160x160, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | _, _ => ⟨S8x1x96x160x160, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_cst_2 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_3 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_cst_4 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_cst_5 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_cst_6 : Ref sig .tc := ⟨.hbm, 42, rfl⟩
abbrev main_v33 : Ref sig .tc := ⟨.hbm, 43, rfl⟩
abbrev main_cst_7 : Ref sig .tc := ⟨.hbm, 44, rfl⟩
abbrev main_v34 : Ref sig .tc := ⟨.hbm, 45, rfl⟩

abbrev nD : Nat := 1
abbrev τ : Topo := Topo.v7x

variable {F : FTy → Type} [FloatOps F]

class Facts₀ : Prop where
  bcast_S_S8x1x96x160x160 : S_.BroadcastsInDim S8x1x96x160x160 (![] : Fin 0 → Fin S8x1x96x160x160.rank)
  reducesTo_S8x1x96x160x160_S_d0_1_2_3_4 : S8x1x96x160x160.ReducesTo [0, 1, 2, 3, 4] S_
  h_S_ : 0 < S_.numel

variable [Facts₀]

class Facts : Prop extends Facts₀ where

variable [Facts]
-- ==== Proof.Voxel.lean ====
/-
  The loss of ONE voxel, as a function of its logit `x` and its label `t` on the extended reals, in the two
  spellings the programs use, and the proof that they are one function.

  Both are  w · ℓ  with  ℓ = max(x, 0) − x·t + log(1 + e^(−|x|))  the binary cross-entropy with logits and
  w = 1 + ½·[t > ½ and not σ(x) > ½] + ½·[not t > ½ and σ(x) > ½]  the weight of a critical voxel (a false negative or a
  false positive of the thresholded prediction), written out as  ℓ + (½·n)·ℓ + (½·p)·ℓ  with n, p ∈ {0, 1}.
  The spellings differ in four places, none of which changes the value:
    · the sigmoid is one operation on one side and  1 / (1 + e^(−x))  on the other: by definition the same extended real,
      once the constant 1.0 is read as the number 1;
    · −|x| is written  0 − |x|  on one side: the zero constant is the number 0 and  0 − y = −y;
    · "not b" of a one-bit word is  b xor 1  on one side and the complement on the other;
    · a one-bit word becomes 0.0 or 1.0 by widening to 32 bits and a signed conversion on one side, by an unsigned
      conversion of the bit itself on the other: for a single bit both give the number 0 or 1.
-/
import Idealize.ShloMosaic.PureOps.Ideal
import Idealize.ShloMosaic.PureOps.Ideal.Laws
import Idealize.ShloMosaic.PureOps.IdealRules

noncomputable section

namespace Cert.VoxelLoss

open Idealize.ShloMosaic

/-- The weighted loss of a voxel, with the sigmoid as one operation, the masks' negation as `xor 1`, and the masks made
    floats through a 32-bit word. -/
def lossK (x t : Ideal .f32) : Ideal .f32 :=
  let z : Ideal .f32 := FloatOps.ofBits .f32 0x00000000#32
  let half : Ideal .f32 := FloatOps.ofBits .f32 0x3F000000#32
  let bce : Ideal .f32 :=
    FloatOps.addf (FloatOps.subf (FloatOps.maximumf x z) (FloatOps.mulf x t))
      (FloatOps.log1p (FloatOps.exp (FloatOps.subf z (FloatOps.absf x))))
  let predFg : BitVec 1 := FloatOps.cmpf .ogt (FloatOps.logistic x) half
  let tgtFg : BitVec 1 := FloatOps.cmpf .ogt t half
  let falseNeg : Ideal .f32 := FloatOps.sitofp .f32 ((IntOp.andi tgtFg (IntOp.xori predFg 1#1)).setWidth 32)
  let falsePos : Ideal .f32 := FloatOps.sitofp .f32 ((IntOp.andi (IntOp.xori tgtFg 1#1) predFg).setWidth 32)
  FloatOps.addf (FloatOps.addf bce (FloatOps.mulf (FloatOps.mulf half falseNeg) bce))
    (FloatOps.mulf (FloatOps.mulf half falsePos) bce)

/-- The same, with the sigmoid written out as a quotient, the masks' negation as the complement, and the masks made floats
    directly. -/
def lossR (x t : Ideal .f32) : Ideal .f32 :=
  let z : Ideal .f32 := FloatOps.ofBits .f32 0x00000000#32
  let one : Ideal .f32 := FloatOps.ofBits .f32 0x3F800000#32
  let half : Ideal .f32 := FloatOps.ofBits .f32 0x3F000000#32
  let bce : Ideal .f32 :=
    FloatOps.addf (FloatOps.subf (FloatOps.maximumf x z) (FloatOps.mulf x t))
      (FloatOps.hostUnary .log1p (FloatOps.hostUnary .exp (FloatOps.hostNegf (FloatOps.hostAbsf x))))
  let predFg : BitVec 1 :=
    FloatOps.cmpf .ogt (FloatOps.hostDivf one (FloatOps.addf one (FloatOps.hostUnary .exp (FloatOps.hostNegf x)))) half
  let tgtFg : BitVec 1 := FloatOps.cmpf .ogt t half
  let falseNeg : Ideal .f32 := FloatOps.uitofp .f32 (IntOp.andi tgtFg (~~~predFg))
  let falsePos : Ideal .f32 := FloatOps.uitofp .f32 (IntOp.andi (~~~tgtFg) predFg)
  FloatOps.addf (FloatOps.addf bce (FloatOps.mulf (FloatOps.mulf half falseNeg) bce))
    (FloatOps.mulf (FloatOps.mulf half falsePos) bce)

/-- The constant 1.0 is the number one. -/
theorem one_eq : (FloatOps.ofBits .f32 0x3F800000#32 : Ideal .f32) = 1 := IdealRules.sign_bit.ideal_onePat .f32

/-- The sigmoid written as a quotient is the sigmoid. -/
theorem sigmoid_eq (x : Ideal .f32) :
    FloatOps.hostDivf (FloatOps.ofBits .f32 0x3F800000#32 : Ideal .f32)
        (FloatOps.addf (FloatOps.ofBits .f32 0x3F800000#32) (FloatOps.hostUnary .exp (FloatOps.hostNegf x)))
      = FloatOps.logistic x := by
  rw [one_eq]
  rfl

/-- `0 − |x|` is `−|x|`. -/
theorem zero_sub_abs (x : Ideal .f32) :
    FloatOps.subf (FloatOps.ofBits .f32 0x00000000#32 : Ideal .f32) (FloatOps.absf x) = FloatOps.hostNegf (FloatOps.hostAbsf x) := by
  show Ideal.ofBits .f32 0x00000000#32 - max x (-x) = -(max x (-x))
  rw [Ideal.ofBits_zero_f32, zero_sub]

/-- A one-bit mask `b and not a` as a float, both ways: the number 0 or 1. -/
theorem mask_and_not (a b : BitVec 1) :
    (FloatOps.sitofp .f32 ((IntOp.andi b (IntOp.xori a 1#1)).setWidth 32) : Ideal .f32)
      = FloatOps.uitofp .f32 (IntOp.andi b (~~~a)) := by
  show ((((b &&& (a ^^^ 1#1)).setWidth 32).toInt : ℝ) : EReal) = ((((b &&& ~~~a).toNat : ℕ) : ℝ) : EReal)
  have h : ∀ a b : BitVec 1, ((b &&& (a ^^^ 1#1)).setWidth 32).toInt = (((b &&& ~~~a).toNat : ℕ) : ℤ) := by decide
  rw [h a b, Int.cast_natCast]

/-- The same with the negated bit on the left: `not b and a`. -/
theorem mask_not_and (a b : BitVec 1) :
    (FloatOps.sitofp .f32 ((IntOp.andi (IntOp.xori b 1#1) a).setWidth 32) : Ideal .f32)
      = FloatOps.uitofp .f32 (IntOp.andi (~~~b) a) := by
  show (((((b ^^^ 1#1) &&& a).setWidth 32).toInt : ℝ) : EReal) = ((((~~~b &&& a).toNat : ℕ) : ℝ) : EReal)
  have h : ∀ a b : BitVec 1, (((b ^^^ 1#1) &&& a).setWidth 32).toInt = (((~~~b &&& a).toNat : ℕ) : ℤ) := by decide
  rw [h a b, Int.cast_natCast]

/-- The two spellings are one function of the voxel. -/
theorem lossK_eq_lossR (x t : Ideal .f32) : lossK x t = lossR x t := by
  unfold lossK lossR
  dsimp only
  rw [sigmoid_eq, zero_sub_abs, mask_and_not, mask_not_and]
  rfl

end Cert.VoxelLoss

end
-- ==== Proof.Body.lean ====
/-
  What one run of the kernel body leaves in the accumulator block, read as values.

  The body loads a (4800, 128) block of logits and one of labels, computes the weighted loss of every voxel, folds the 4800
  rows into 8 by adding rows 8·r + s over the 600 groups r (a sum along the leading axis of the block seen as (600, 8, 128)),
  and adds that (8, 128) partial sum into the accumulator block. At the first block of a half it first stores zeros into the
  accumulator and reads them back. So after a run the accumulator holds  A + P  where A is what it held before (zeros at a
  first block) and, at entry (s, l),  P = Σ_{r < 600} loss(x[8r + s, l], t[8r + s, l]).
-/
import proofs.«160333_j56169582297100_1_alg».proof.Proof.Gen.KernelIdeal.Frame
import proofs.«160333_j56169582297100_1_alg».proof.Proof.Voxel
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

noncomputable section

open Idealize.ShloMosaic Idealize.ShloMosaic.TcCoe Idealize.SL.Sem

namespace Cert.KernelIdeal.Body

open Cert.KernelIdeal Cert.KernelIdeal.Gen Idealize.ShloMosaic.ValueIdx Cert.VoxelLoss

/-! ## The stores a run makes, as one value (any float instance) -/

section Pieces

variable {F : FTy → Type} [FloatOps F]

theorem hz3 : (![0, 0, 0] : Fin 3 → Nat) = fun _ => 0 := funext fun a => by fin_cases a <;> rfl

/-- A run at a later block of a half: one store covers the accumulator block, of the accumulator's contents `xo` plus the
    partial sum of the two input blocks. -/
theorem out_later (c : Dev nD) (i : grid0.Coords) (a2 : Memref sig .tc .vmem S1x4800x128 .f32) (h2 : a2.IsWhole)
    (a3 : Memref sig .tc .vmem S1x4800x128 .f32) (h3 : a3.IsWhole) (a4 : Memref sig .tc .vmem S1x8x128 .f32) (h4 : a4.IsWhole)
    (hc : ¬cond0_0 i) (x0 x1 : Vec F S1x4800x128 .f32) (xo : Vec F S1x8x128 .f32) :
    out0_B_2 c i a2 h2 a3 h3 a4 h4 hc x0 x1 xo = k0_pay1 (k0_pay3 x0 x1) xo := by
  unfold out0_B_2
  rw [View.read_writes_eq_canon _ _ _ (cover0_B_2 c i a2 h2 a3 h3 a4 h4 hc x0 x1 xo)]
  unfold kernelRun0_B
  dsimp only
  sl_unfold_words
  rw [View.canon_unit_zero hz3]
  simp only [View.readAt_eq_ld, h2.read_unread, h3.read_unread, h4.read_unread, View.ld_unit_zero (S := S1x4800x128) hz3,
    View.ld_unit_zero (S := S1x8x128) hz3]

/-- A run at the first block of a half: the zero block is stored and read back, then the same covering store over it. -/
theorem out_first (c : Dev nD) (i : grid0.Coords) (a2 : Memref sig .tc .vmem S1x4800x128 .f32) (h2 : a2.IsWhole)
    (a3 : Memref sig .tc .vmem S1x4800x128 .f32) (h3 : a3.IsWhole) (a4 : Memref sig .tc .vmem S1x8x128 .f32) (h4 : a4.IsWhole)
    (hc : cond0_0 i) (x0 x1 : Vec F S1x4800x128 .f32) :
    out0_A_2 c i a2 h2 a3 h3 a4 h4 hc x0 x1 = k0_pay1 (k0_pay3 x0 x1) k0_pay2 := by
  unfold out0_A_2
  rw [View.read_writes_eq_canon _ _ _ (cover0_A_2 c i a2 h2 a3 h3 a4 h4 hc x0 x1)]
  unfold kernelRun0_A
  dsimp only
  sl_unfold_words
  rw [View.canon_cons_unit_zero (S := S1x8x128) hz3]
  simp only [View.readAt_eq_ld, h2.read_unread, h3.read_unread, View.readCov_unit_zero (S := S1x8x128) _ hz3,
    View.ld_unit_zero (S := S1x4800x128) hz3, View.ld_unit_zero (S := S1x8x128) hz3]

end Pieces

/-! ## The three payloads at an entry, over the extended reals -/

/-- Row `s` of group `r` of a block. -/
abbrev grp (r : Fin 600) (s : Fin 8) : Fin 4800 := ⟨8 * r.val + s.val, by have := r.isLt; have := s.isLt; omega⟩

/-- The stored zero block is zero at every entry. -/
theorem zero_apply (s : Fin 8) (l : Fin 128) : (k0_pay2 (F := Ideal)) (ix3 (0 : Fin 1) s l) = 0 := by
  unfold k0_pay2
  exact (shapeCast_ab_1ab_apply _ shapeCasts_S8x128_S1x8x128 (0 : Fin 1) s l).trans Ideal.ofBits_zero_f32

/-- The accumulating store at an entry: what the accumulator held there plus the partial sum there. -/
theorem acc_apply (P : FVec Ideal S8x128 .f32) (A : FVec Ideal S1x8x128 .f32) (s : Fin 8) (l : Fin 128) :
    k0_pay1 (F := Ideal) P A (ix3 (0 : Fin 1) s l) = A (ix3 (0 : Fin 1) s l) + P (ix2 s l) := by
  unfold k0_pay1
  refine (shapeCast_ab_1ab_apply _ shapeCasts_S8x128_S1x8x128 (0 : Fin 1) s l).trans ?_
  show shapeCast S8x128 A shapeCasts_S1x8x128_S8x128 (ix2 s l) + P (ix2 s l) = _
  exact congrArg (· + P (ix2 s l)) (shapeCast_1ab_ab_apply A shapeCasts_S1x8x128_S8x128 s l)

/-- The partial sum of a block pair at an entry: over the 600 groups, the loss of the voxel at row 8·r + s, lane l. -/
theorem partial_apply (x t : FVec Ideal S1x4800x128 .f32) (s : Fin 8) (l : Fin 128) :
    k0_pay3 (F := Ideal) x t (ix2 s l)
      = ∑ r : Fin 600, lossK (x (ix3 (0 : Fin 1) (grp r s) l)) (t (ix3 (0 : Fin 1) (grp r s) l)) := by
  unfold k0_pay3
  refine (Ideal.multiReduction_add_single _ 0x00000000#32 reduces_S600x8x128_S8x128 (.inl rfl) rfl (ix2 s l)).trans ?_
  refine Finset.sum_congr rfl fun r _ => ?_
  refine (shapeCast_apply _ shapeCasts_S4800x128_S600x8x128 _ (ix2 (grp r s) l) ?_).trans ?_
  · rw [Shape.rowMajor_val_two, Shape.rowMajor_val_three]
    show (8 * r.val + s.val) * 128 + l.val = (r.val * 8 + s.val) * 128 + l.val
    omega
  · show lossK (shapeCast S4800x128 x shapeCasts_S1x4800x128_S4800x128 (ix2 (grp r s) l))
        (shapeCast S4800x128 t shapeCasts_S1x4800x128_S4800x128 (ix2 (grp r s) l)) = _
    rw [shapeCast_1ab_ab_apply x, shapeCast_1ab_ab_apply t]

end Cert.KernelIdeal.Body

end
-- ==== Proof.RowSplit.lean ====
/-
  Regrouping a sum over the flattened volume the way the kernel walks it.

  The volume is read as 2 halves × 76800 rows × 128 lanes. A half is walked in 16 blocks of 4800 rows; inside a block the
  rows are taken 8 at a time (600 groups), and row `s` of every group is added into row `s` of an 8 × 128 accumulator. So the
  entry (half p, row s, lane l) of the accumulators collects the rows  4800·k + 8·r + s  (k < 16, r < 600) of half p at lane l.
  Every row of a half is  4800·k + 8·r + s  for exactly one (s, k, r)  (mixed-radix digits), hence a sum over all rows is the
  triple sum over (s, k, r), in any commutative monoid; summing the lanes and the halves as well gives the whole volume.
-/
import Idealize.ShloMosaic.Lib.ValueIdx

noncomputable section

namespace Cert.RowSplit

open Idealize.ShloMosaic Idealize.ShloMosaic.ValueIdx

/-- Row `s` of group `r` of block `k`, as a row of the half. -/
abbrev rowOf (k : Fin 16) (r : Fin 600) (s : Fin 8) : Fin 76800 :=
  ⟨4800 * k.val + (8 * r.val + s.val), by have := k.isLt; have := r.isLt; have := s.isLt; omega⟩

/-- (s, k, r) ↦ row 4800·k + 8·r + s is a bijection onto the rows of a half: distinct digits give distinct rows, and
    there are as many triples as rows. -/
theorem rowOf_bijective : Function.Bijective (fun q : Fin 8 × Fin 16 × Fin 600 => rowOf q.2.1 q.2.2 q.1) := by
  rw [Fintype.bijective_iff_injective_and_card]
  refine ⟨?_, by simp⟩
  rintro ⟨s, k, r⟩ ⟨s', k', r'⟩ h
  have h' : 4800 * k.val + (8 * r.val + s.val) = 4800 * k'.val + (8 * r'.val + s'.val) := congrArg Fin.val h
  have := s.isLt; have := s'.isLt; have := r.isLt; have := r'.isLt
  obtain ⟨hk, hr, hs⟩ : k.val = k'.val ∧ r.val = r'.val ∧ s.val = s'.val := by omega
  exact Prod.ext (Fin.ext hs) (Prod.ext (Fin.ext hk) (Fin.ext hr))

/-- A sum over the rows of a half, regrouped by (row of the accumulator, block, group). -/
theorem sum_rows {M : Type*} [AddCommMonoid M] (G : Fin 76800 → M) :
    ∑ b, G b = ∑ s : Fin 8, ∑ k : Fin 16, ∑ r : Fin 600, G (rowOf k r s) := by
  rw [← rowOf_bijective.sum_comp G, Fintype.sum_prod_type]
  exact Finset.sum_congr rfl fun s _ => Fintype.sum_prod_type _

/-- A rank-3 index set is the product of its three coordinate ranges … -/
def idxEquiv3 {n0 n1 n2 : Nat} : (⟨3, ![n0, n1, n2]⟩ : Shape).Idx ≃ Fin n0 × Fin n1 × Fin n2 where
  toFun i := (i 0, i 1, i 2)
  invFun q := ix3 q.1 q.2.1 q.2.2
  left_inv i := (eq_ix3 i).symm
  right_inv _ := rfl

/-- … so a sum over it is the triple sum over the coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-- The sum over the whole (2, 76800, 128) volume is the sum, over the entries (p, s, l) of the two accumulators, of what
    each collects: the rows 4800·k + 8·r + s of half p at lane l. -/
theorem sum_volume {M : Type*} [AddCommMonoid M] (f : (⟨3, ![2, 76800, 128]⟩ : Shape).Idx → M) :
    ∑ i, f i = ∑ p : Fin 2, ∑ s : Fin 8, ∑ l : Fin 128, ∑ k : Fin 16, ∑ r : Fin 600, f (ix3 p (rowOf k r s) l) := by
  rw [sum_idx3]
  refine Finset.sum_congr rfl fun p _ => ?_
  rw [sum_rows (M := M) fun b => ∑ c : Fin 128, f (ix3 p b c)]
  refine Finset.sum_congr rfl fun s _ => ?_
  -- bring the lane sum outside the block and group sums: first past the groups, then past the blocks
  calc ∑ k : Fin 16, ∑ r : Fin 600, ∑ c : Fin 128, f (ix3 p (rowOf k r s) c)
      = ∑ k : Fin 16, ∑ c : Fin 128, ∑ r : Fin 600, f (ix3 p (rowOf k r s) c) :=
        Finset.sum_congr rfl fun k _ => Finset.sum_comm
    _ = ∑ c : Fin 128, ∑ k : Fin 16, ∑ r : Fin 600, f (ix3 p (rowOf k r s) c) := Finset.sum_comm

end Cert.RowSplit

end
-- ==== Proof.Accumulate.lean ====
/-
  The accumulator block point by point, and what the two result blocks end holding.

  The grid has 2 × 16 points; point n = 16·p + k works on rows 4800·k … 4800·k + 4799 of half p. The accumulator block of
  half p is reset at k = 0 and added into at k = 1 … 15, so after point n its entry (s, l) is the sum of the partial sums of
  the points 16·p … n of the same half (induction on the point: a first block leaves 0 + P, a later block A + P over what the
  point before left). After the last point of a half, entry (s, l) is therefore
      Σ_{k < 16} Σ_{r < 600} loss(x[p, 4800·k + 8·r + s, l], t[p, 4800·k + 8·r + s, l]),
  the voxels of the reshaped (2, 76800, 128) arrays: row ρ of block k of half p is row 4800·k + ρ of that half.
-/
import proofs.«160333_j56169582297100_1_alg».proof.Proof.Body
import proofs.«160333_j56169582297100_1_alg».proof.Proof.RowSplit

noncomputable section

open Idealize.ShloMosaic Idealize.ShloMosaic.TcCoe Idealize.SL.Sem

namespace Cert.KernelIdeal.Accum

open Cert.KernelIdeal Cert.KernelIdeal.Gen Idealize.ShloMosaic.ValueIdx Cert.VoxelLoss Cert.RowSplit Cert.KernelIdeal.Body

variable (m : (ℓ : Loc nD τ sig) → Buf (Elt Ideal) ℓ)

/-- The logits and the labels as the kernel's windows find them: the (2, 76800, 128) arrays. -/
abbrev logits (c : Dev nD) : FVec Ideal S2x76800x128 .f32 := V m c main_v0
abbrev labels (c : Dev nD) : FVec Ideal S2x76800x128 .f32 := V m c main_v1
/-- The blocks of them a point is handed. -/
abbrev xblk (c : Dev nD) (t : Fin cfg0.N) : FVec Ideal S1x4800x128 .f32 := iblk m c 0 t
abbrev tblk (c : Dev nD) (t : Fin cfg0.N) : FVec Ideal S1x4800x128 .f32 := iblk m c 1 t

/-- Where the two input windows stand at a point: half `t / 16`, row block `t % 16`, all lanes. -/
theorem idx_in : ∀ t : Fin cfg0.N,
    (win0_0.index t 0 = t.val / 16 ∧ win0_0.index t 1 = t.val % 16 ∧ win0_0.index t 2 = 0)
    ∧ (win0_1.index t 0 = t.val / 16 ∧ win0_1.index t 1 = t.val % 16 ∧ win0_1.index t 2 = 0) :=
  (by decide +kernel : ∀ t : Fin grid0.N, _)

/-- Row ρ, lane l of the logits block at point 16·p + k is row 4800·k + ρ of half p. -/
theorem xblk_apply (c : Dev nD) (t : Fin cfg0.N) (p : Fin 2) (k : Fin 16) (ht : t.val = 16 * p.val + k.val)
    (ρ : Fin 4800) (l : Fin 128) :
    xblk m c t (ix3 (0 : Fin 1) ρ l)
      = logits m c (ix3 p ⟨4800 * k.val + ρ.val, by have := k.isLt; have := ρ.isLt; omega⟩ l) := by
  obtain ⟨⟨h0, h1, h2⟩, -⟩ := idx_in t
  have hp := p.isLt; have hk := k.isLt
  unfold xblk iblk
  rw [View.read_apply]
  show V m c main_v0 _ = V m c main_v0 _
  refine congrArg (V m c main_v0) (funext fun a => Fin.ext ?_)
  match a with
  | ⟨0, _⟩ => show win0_0.index t 0 * 1 + 1 * 0 = p.val; rw [h0]; omega
  | ⟨1, _⟩ => show win0_0.index t 1 * 4800 + 1 * ρ.val = 4800 * k.val + ρ.val; rw [h1]; omega
  | ⟨2, _⟩ => show win0_0.index t 2 * 128 + 1 * l.val = l.val; rw [h2]; omega

/-- The same of the labels block. -/
theorem tblk_apply (c : Dev nD) (t : Fin cfg0.N) (p : Fin 2) (k : Fin 16) (ht : t.val = 16 * p.val + k.val)
    (ρ : Fin 4800) (l : Fin 128) :
    tblk m c t (ix3 (0 : Fin 1) ρ l)
      = labels m c (ix3 p ⟨4800 * k.val + ρ.val, by have := k.isLt; have := ρ.isLt; omega⟩ l) := by
  obtain ⟨-, ⟨h0, h1, h2⟩⟩ := idx_in t
  have hp := p.isLt; have hk := k.isLt
  unfold tblk iblk
  rw [View.read_apply]
  show V m c main_v1 _ = V m c main_v1 _
  refine congrArg (V m c main_v1) (funext fun a => Fin.ext ?_)
  match a with
  | ⟨0, _⟩ => show win0_1.index t 0 * 1 + 1 * 0 = p.val; rw [h0]; omega
  | ⟨1, _⟩ => show win0_1.index t 1 * 4800 + 1 * ρ.val = 4800 * k.val + ρ.val; rw [h1]; omega
  | ⟨2, _⟩ => show win0_1.index t 2 * 128 + 1 * l.val = l.val; rw [h2]; omega

/-- The partial sum point `n` contributes to entry (s, l) of its half's accumulator (zero past the grid, never used). -/
def pointSum (c : Dev nD) (n : ℕ) (s : Fin 8) (l : Fin 128) : EReal :=
  if h : n < cfg0.N then k0_pay3 (F := Ideal) (xblk m c ⟨n, h⟩) (tblk m c ⟨n, h⟩) (ix2 s l) else 0

/-- The sum of the partial sums of the points of `n`'s half up to `n`. -/
def runSum (c : Dev nD) (n : ℕ) (s : Fin 8) (l : Fin 128) : EReal :=
  ∑ j ∈ Finset.range (n % 16 + 1), pointSum m c (n - n % 16 + j) s l

/-- After a first block of a half the accumulator entry is that point's partial sum. -/
theorem outsAt_first (c : Dev nD) (n : ℕ) (h : n < cfg0.N) (h0 : n % 16 = 0) (s : Fin 8) (l : Fin 128) :
    (outsAt0 m c n h : FVec Ideal S1x8x128 .f32) (ix3 (0 : Fin 1) s l) = runSum m c n s l := by
  rw [outsAt0_A m c ⟨n, h⟩ h0, out_first]
  refine (acc_apply _ _ s l).trans ?_
  rw [zero_apply, zero_add]
  unfold runSum
  rw [h0, Finset.sum_range_one, Nat.sub_zero, Nat.add_zero]
  unfold pointSum
  rw [dif_pos h]

/-- After any point the accumulator entry is the sum over its half's points so far: by induction on the point. -/
theorem outsAt_apply (c : Dev nD) : ∀ (n : ℕ) (h : n < cfg0.N) (s : Fin 8) (l : Fin 128),
    (outsAt0 m c n h : FVec Ideal S1x8x128 .f32) (ix3 (0 : Fin 1) s l) = runSum m c n s l
  | 0, h, s, l => outsAt_first m c 0 h rfl s l
  | n + 1, h, s, l => by
    by_cases h0 : (n + 1) % 16 = 0
    · exact outsAt_first m c (n + 1) h h0 s l
    · rw [outsAt0_B m c ⟨n + 1, h⟩ h0, out_later]
      refine (acc_apply _ _ s l).trans ?_
      show (outsAt0 m c n _ : FVec Ideal S1x8x128 .f32) (ix3 (0 : Fin 1) s l) + _ = _
      rw [outsAt_apply c n (Nat.lt_of_succ_lt h) s l]
      unfold runSum
      have e1 : (n + 1) % 16 = n % 16 + 1 := by omega
      have e2 : n + 1 - (n + 1) % 16 = n - n % 16 := by omega
      rw [e2, e1, Finset.sum_range_succ _ (n % 16 + 1)]
      refine congrArg (_ + ·) ?_
      have e3 : n - n % 16 + (n % 16 + 1) = n + 1 := by omega
      rw [e3]
      unfold pointSum
      rw [dif_pos h]

/-- What a half's accumulator entry collects: the voxels at rows 4800·k + 8·r + s of the half, lane l. -/
def halfSum (c : Dev nD) (p : Fin 2) (s : Fin 8) (l : Fin 128) : EReal :=
  ∑ k : Fin 16, ∑ r : Fin 600,
    lossK (logits m c (ix3 p (rowOf k r s) l)) (labels m c (ix3 p (rowOf k r s) l))

/-- The partial sum of point 16·p + k, in the reshaped arrays. -/
theorem pointSum_eq (c : Dev nD) (p : Fin 2) (k : Fin 16) (s : Fin 8) (l : Fin 128) :
    pointSum m c (16 * p.val + k.val) s l
      = ∑ r : Fin 600, lossK (logits m c (ix3 p (rowOf k r s) l)) (labels m c (ix3 p (rowOf k r s) l)) := by
  have hN : cfg0.N = 32 := N_0
  have hlt : 16 * p.val + k.val < cfg0.N := by have := p.isLt; have := k.isLt; omega
  unfold pointSum
  rw [dif_pos hlt, partial_apply]
  refine Finset.sum_congr rfl fun r _ => ?_
  rw [xblk_apply m c ⟨16 * p.val + k.val, hlt⟩ p k rfl (grp r s) l, tblk_apply m c ⟨16 * p.val + k.val, hlt⟩ p k rfl (grp r s) l]

/-- After the last point of half p the accumulator entry is what the half collects. -/
theorem outsAt_last (c : Dev nD) (p : Fin 2) (h : 16 * p.val + 15 < cfg0.N) (s : Fin 8) (l : Fin 128) :
    (outsAt0 m c (16 * p.val + 15) h : FVec Ideal S1x8x128 .f32) (ix3 (0 : Fin 1) s l) = halfSum m c p s l := by
  rw [outsAt_apply]
  unfold runSum halfSum
  have e1 : (16 * p.val + 15) % 16 + 1 = 16 := by omega
  have e2 : 16 * p.val + 15 - (16 * p.val + 15) % 16 = 16 * p.val := by omega
  rw [e1, e2, ← Fin.sum_univ_eq_sum_range (fun j => pointSum m c (16 * p.val + j) s l) 16]
  exact Finset.sum_congr rfl fun k _ => pointSum_eq m c p k s l

end Cert.KernelIdeal.Accum

end
-- ==== Proof.Mean.lean ====
/-
  The value both programs compute: the mean over the volume of the voxels' weighted losses,
      ( 0 + Σ_j loss(x_j, t_j) ) / 19660800,
  and the step that joins the two arrangements of the sum. One program adds the 19,660,800 voxels at once. The other
  reshapes the volume to (2, 76800, 128) — the same voxels in row-major order — and collects them in two 8 × 128
  accumulators, entry (p, s, l) holding the voxels at rows 4800·k + 8·r + s of half p, lane l; the accumulators' entries add
  up to the same total, because every voxel of the reshaped volume is collected by exactly one entry (RowSplit) and the
  reshape is a bijection of the indices. Addition of extended reals is commutative and associative, so no finiteness is
  needed for the regrouping.
-/
import proofs.«160333_j56169582297100_1_alg».proof.Proof.Voxel
import proofs.«160333_j56169582297100_1_alg».proof.Proof.RowSplit
import Idealize.ShloMosaic.Lib.ValueIdx

noncomputable section

namespace Cert.VoxelLoss

open Idealize.ShloMosaic Idealize.ShloMosaic.ValueIdx Cert.RowSplit

/-- The volume, its flattening into two halves of rows of 128 lanes, and the two accumulators. -/
abbrev Vol : Shape := ⟨5, ![8, 1, 96, 160, 160]⟩
abbrev Flat : Shape := ⟨3, ![2, 76800, 128]⟩
abbrev Accs : Shape := ⟨3, ![2, 8, 128]⟩

/-- The mean weighted loss of a volume of logits `x` and labels `t`. -/
def meanLoss (x t : FVec Ideal Vol .f32) : FVec Ideal ⟨0, ![]⟩ .f32 := fun _ =>
  Ideal.div (Ideal.ofBits .f32 0x00000000#32 + ∑ j : Vol.Idx, lossK (x j) (t j)) (Ideal.ofBits .f32 0x4B960000#32)

/-- If entry (p, s, l) of the accumulators holds the voxels at rows 4800·k + 8·r + s of half p, lane l, of the reshaped
    volume, the accumulators' total is the volume's. -/
theorem total_eq (h : Vol.ShapeCasts Flat) (x t : FVec Ideal Vol .f32) (A : FVec Ideal Accs .f32)
    (hA : ∀ (p : Fin 2) (s : Fin 8) (l : Fin 128), A (ix3 p s l)
      = ∑ k : Fin 16, ∑ r : Fin 600,
          lossK (shapeCast Flat x h (ix3 p (rowOf k r s) l)) (shapeCast Flat t h (ix3 p (rowOf k r s) l))) :
    ∑ q : Accs.Idx, A q = ∑ j : Vol.Idx, lossK (x j) (t j) := by
  rw [sum_idx3]
  simp only [hA]
  rw [← sum_volume (fun i => lossK (shapeCast Flat x h i) (shapeCast Flat t h i))]
  exact Equiv.sum_comp (Shape.reshapeEquiv h) (fun j => lossK (x j) (t j))

end Cert.VoxelLoss

end
-- ==== Proof.Result.lean ====
/-
  The kernel's result: the mean weighted loss of the volume.

  The (2, 8, 128) result array of the region is written back twice, after the last point of each half (points 15 and 31);
  block p of it is then the accumulator of half p, whose entry (s, l) holds the voxels at rows 4800·k + 8·r + s of the half
  (Accumulate). The two blocks tile the array, so the array ends as those two accumulators. The host lines after the region
  add its 2048 entries from zero and divide by the number of voxels; the entries' total is the volume's total (the reshaped
  arrays are the arguments in row-major order, and every voxel is collected by exactly one entry: Mean), so the result is
  the mean weighted loss of the arguments.
-/
import proofs.«160333_j56169582297100_1_alg».proof.Proof.Accumulate
import proofs.«160333_j56169582297100_1_alg».proof.Proof.Mean
import Idealize.ShloMosaic.Lib.StableHlo.Run
import Idealize.ShloMosaic.Lib.IdealHost

noncomputable section

open Idealize.ShloMosaic Idealize.ShloMosaic.TcCoe Idealize.SL.Sem
open Idealize.ShloMosaic.Pipeline (Dat)

namespace Cert.KernelIdeal.Result

open Cert.KernelIdeal Cert.KernelIdeal.Gen Idealize.ShloMosaic.ValueIdx Cert.VoxelLoss Cert.RowSplit Cert.KernelIdeal.Body
open Cert.KernelIdeal.Accum

variable (m : (ℓ : Loc nD τ sig) → Buf (Elt Ideal) ℓ) (ρ : Dev nD → PrngReg)

/-- The arrays the windows read are the arguments reshaped: the same voxels in row-major order. -/
theorem logits_eq (c : Dev nD) :
    logits m c = shapeCast S2x76800x128 (m ((c : Thread nD τ).loc main_arg0)) shapeCasts_S8x1x96x160x160_S2x76800x128 := by
  show StableHlo.after hostOps0 (fun b => m (c, b)) (Proc.devRef .tc main_v0) = _
  after_results
  rfl

theorem labels_eq (c : Dev nD) :
    labels m c = shapeCast S2x76800x128 (m ((c : Thread nD τ).loc main_arg1)) shapeCasts_S8x1x96x160x160_S2x76800x128 := by
  show StableHlo.after hostOps0 (fun b => m (c, b)) (Proc.devRef .tc main_v1) = _
  after_results
  rfl

/-- The two accumulators after their halves' last points, as contents of the (2, 8, 128) array. -/
def accs (c : Dev nD) : FVec Ideal S2x8x128 .f32 := fun q => halfSum m c (q 0) (q 1) (q 2)

/-- Where the result window stands at a point: block `t / 16`, which is the whole of that half's (8, 128). -/
theorem idx_out : ∀ t : Fin cfg0.N, win0_2.index t 0 = t.val / 16 ∧ win0_2.index t 1 = 0 ∧ win0_2.index t 2 = 0 :=
  (by decide +kernel : ∀ t : Fin grid0.N, _)

theorem outsAt_congr (c : Dev nD) {n n' : ℕ} (e : n = n') (h : n < cfg0.N) (h' : n' < cfg0.N) :
    outsAt0 m c n h = outsAt0 m c n' h' := by subst e; rfl

/-- What a point that writes back (the last of a half) writes is that half's block of the accumulators. -/
theorem flushed_eq (c : Dev nD) (t : Fin cfg0.N) (hf : (cfg0.win 2).flush t = true) :
    (dats m 0 c).flushed 2 t = ((cfg0.win 2).blk t).view.read (Elt Ideal) (accs m c) := by
  have hN : cfg0.N = 32 := N_0
  have htlt := t.isLt
  have h15 : t.val % 16 = 15 := (flush0_2 t).mp hf
  obtain ⟨i0, i1, i2⟩ := idx_out t
  have hp : t.val / 16 < 2 := by omega
  show (cfg0.win 2).cut (grid0.coords t) ((dats m 0 c).after 2 t) = _
  rw [after0_2]
  funext j
  obtain ⟨s, l, rfl⟩ : ∃ (s : Fin 8) (l : Fin 128), j = ix3 (0 : Fin 1) s l :=
    ⟨j 1, j 2, by
      funext a
      match a with
      | ⟨0, _⟩ => exact Fin.ext (by have h1 : (j 0).val < 1 := (j 0).isLt; show (j 0).val = 0; omega)
      | ⟨1, _⟩ => rfl
      | ⟨2, _⟩ => rfl⟩
  show (outsAt0 m c t.val t.isLt : FVec Ideal S1x8x128 .f32) (ix3 (0 : Fin 1) s l)
    = accs m c (((cfg0.win 2).blk t).view.emb (ix3 (0 : Fin 1) s l))
  -- entry (0, s, l) of block t/16 is entry (t/16, s, l) of the array
  have hemb : ((cfg0.win 2).blk t).view.emb (ix3 (0 : Fin 1) s l) = ix3 (⟨t.val / 16, hp⟩ : Fin 2) s l := by
    funext a; apply Fin.ext
    match a with
    | ⟨0, _⟩ => show win0_2.index t 0 * 1 + 1 * 0 = t.val / 16; rw [i0]; omega
    | ⟨1, _⟩ => show win0_2.index t 1 * 8 + 1 * s.val = s.val; rw [i1]; omega
    | ⟨2, _⟩ => show win0_2.index t 2 * 128 + 1 * l.val = l.val; rw [i2]; omega
  rw [hemb]
  show _ = halfSum m c ⟨t.val / 16, hp⟩ s l
  rw [← outsAt_last m c ⟨t.val / 16, hp⟩ (by show 16 * (t.val / 16) + 15 < cfg0.N; omega) s l]
  exact congrFun (outsAt_congr m c (by show t.val = 16 * (t.val / 16) + 15; omega) _ _) _

/-- Every entry (p, s, l) of the array is in the block the last point of half p writes back. -/
theorem cover (i : S2x8x128.Idx) :
    ∃ t : Fin cfg0.N, (cfg0.win 2).flush t = true ∧ i ∈ ((cfg0.win 2).blk t).view.set := by
  have hN : cfg0.N = 32 := N_0
  have hi0 : (i 0).val < 2 := (i 0).isLt
  have hi1 : (i 1).val < 8 := (i 1).isLt
  have hi2 : (i 2).val < 128 := (i 2).isLt
  have hlt : 16 * (i 0).val + 15 < cfg0.N := by omega
  obtain ⟨i0, i1, i2⟩ := idx_out ⟨16 * (i 0).val + 15, hlt⟩
  refine ⟨⟨16 * (i 0).val + 15, hlt⟩, (flush0_2 _).mpr (by show (16 * (i 0).val + 15) % 16 = 15; omega), ?_⟩
  show i ∈ ((View.whole main_v2).slice (win0_2.rect ⟨16 * (i 0).val + 15, hlt⟩)).set
  rw [View.set_slice_whole, Rect.mem_set_unit]
  intro a
  match a with
  | ⟨0, _⟩ =>
    show win0_2.index ⟨16 * (i 0).val + 15, hlt⟩ 0 * 1 ≤ (i 0).val ∧ (i 0).val < win0_2.index ⟨16 * (i 0).val + 15, hlt⟩ 0 * 1 + 1
    rw [i0]; show (16 * (i 0).val + 15) / 16 * 1 ≤ (i 0).val ∧ (i 0).val < (16 * (i 0).val + 15) / 16 * 1 + 1; omega
  | ⟨1, _⟩ =>
    show win0_2.index ⟨16 * (i 0).val + 15, hlt⟩ 1 * 8 ≤ (i 1).val ∧ (i 1).val < win0_2.index ⟨16 * (i 0).val + 15, hlt⟩ 1 * 8 + 8
    rw [i1]; omega
  | ⟨2, _⟩ =>
    show win0_2.index ⟨16 * (i 0).val + 15, hlt⟩ 2 * 128 ≤ (i 2).val ∧ (i 2).val < win0_2.index ⟨16 * (i 0).val + 15, hlt⟩ 2 * 128 + 128
    rw [i2]; omega

/-- So the region's result array ends as the two accumulators. -/
theorem final (c : Dev nD) : (dats m 0 c).arrAt 2 cfg0.N = accs m c :=
  (dats m 0 c).arrAt_eq_of_cover 2 (accs m c) (flushed_eq m c) cover

/-- The host lines after the region — the entries' sum from zero, divided by the number of voxels — leave the mean
    weighted loss of the arguments. -/
theorem tail_eq (c : Dev nD) :
    Pipeline.afterTail₀ cfgs (dats m) 0 (V0 m) [hostOps1] c main_v4
      = meanLoss (m ((c : Thread nD τ).loc main_arg0)) (m ((c : Thread nD τ).loc main_arg1)) := by
  unfold Pipeline.afterTail₀
  show StableHlo.after hostOps1 _ (Proc.devRef .tc main_v4) = _
  after_results
  have hw : Pipeline.withArrays (cfgs 0).spec c (V0 m c) (fun w => (dats m 0 c).arrAt w (cfgs 0).N) (Proc.devRef .tc main_v2)
      = accs m c := (Pipeline.withArrays_arr spec0 launch0.win.arr_inj c _ _ 2).trans (final m c)
  rw [hw]
  funext i
  show Ideal.div (Ideal.hostReduceAdd reducesTo_S2x8x128_S_d0_1_2 (accs m c) (Ideal.ofBits .f32 0x00000000#32) i)
      (Ideal.ofBits .f32 0x4B960000#32)
    = Ideal.div (Ideal.ofBits .f32 0x00000000#32
        + ∑ j : Vol.Idx, lossK (m ((c : Thread nD τ).loc main_arg0) j) (m ((c : Thread nD τ).loc main_arg1) j))
      (Ideal.ofBits .f32 0x4B960000#32)
  rw [Ideal.hostReduceAdd_total reducesTo_S2x8x128_S_d0_1_2 (fun b => b.elim0)]
  refine congrArg (fun z => Ideal.div (Ideal.ofBits .f32 0x00000000#32 + z) (Ideal.ofBits .f32 0x4B960000#32)) ?_
  exact total_eq shapeCasts_S8x1x96x160x160_S2x76800x128 _ _ (accs m c) (fun p s l => by
    show halfSum m c p s l = _
    unfold halfSum
    rw [logits_eq, labels_eq])

/-- The kernel's run, read: the result at the mean weighted loss of the arguments, the arguments unchanged. -/
theorem run : θ_run defs (onTc (τ := τ) (main (F := Ideal))) ⟨m, fun _ => 0, ρ⟩ fun r => ∀ c : Dev nD,
      r.2.mem ((c.tc : Thread nD τ).loc main_v4)
        = meanLoss (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
      ⟨((h c).2 main_v4 (Pipeline.mem_restRefs_of main_v4 (by decide) (by decide))).trans (tail_eq m c),
       ((h c).2 main_arg0 (Pipeline.mem_restRefs_of main_arg0 (by decide) (by decide))).trans (W_main_arg0 m (dats m) c),
       ((h c).2 main_arg1 (Pipeline.mem_restRefs_of main_arg1 (by decide) (by decide))).trans (W_main_arg1 m (dats m) c)⟩)
    (run_main m ρ)

end Cert.KernelIdeal.Result

end
-- ==== Proof.RefValue.lean ====
/-
  The reference's result is the mean weighted loss of the volume.

  Its host program computes, voxel by voxel, the sigmoid as 1 / (1 + e^(−x)), the two thresholded masks, the cross-entropy
  with logits and the weighted loss; then adds all voxels from zero and divides by their number. Read one operation at a time
  (the generated stage lemmas), the last elementwise stage at a voxel is the weighted loss in the quotient spelling, which is
  the same extended real as in the other spelling; the sum and the quotient are then the mean's own.
-/
import proofs.«160333_j56169582297100_1_alg».proof.Proof.Gen.ReferenceIdeal.Read
import proofs.«160333_j56169582297100_1_alg».proof.Proof.Mean

noncomputable section

open Idealize.ShloMosaic Idealize.ShloMosaic.TcCoe Idealize.SL.Sem

namespace Cert.ReferenceIdeal.RefValue

open Cert.ReferenceIdeal Cert.ReferenceIdeal.Gen Cert.ReferenceIdeal.Read Cert.VoxelLoss

/-- The last elementwise stage at a voxel: the weighted loss of that voxel (every stage before it is pointwise, a
    broadcast constant reading its one value). -/
theorem weighted_apply (x0 x1 : FVec Ideal S8x1x96x160x160 .f32) (j : S8x1x96x160x160.Idx) :
    val_main_v32 (F := Ideal) x0 x1 j = lossR (x0 j) (x1 j) := rfl

/-- The result stage is the mean weighted loss. -/
theorem result_eq (x0 x1 : FVec Ideal S8x1x96x160x160 .f32) : val_main_v34 (F := Ideal) x0 x1 = meanLoss x0 x1 := by
  funext i
  rw [val_main_v34_apply, val_main_v33_apply]
  show Ideal.div (Ideal.ofBits .f32 0x00000000#32 + ∑ j, val_main_v32 (F := Ideal) x0 x1 j) (Ideal.ofBits .f32 0x4B960000#32)
    = Ideal.div (Ideal.ofBits .f32 0x00000000#32 + ∑ j : Vol.Idx, lossK (x0 j) (x1 j)) (Ideal.ofBits .f32 0x4B960000#32)
  refine congrArg (fun z => Ideal.div (Ideal.ofBits .f32 0x00000000#32 + z) (Ideal.ofBits .f32 0x4B960000#32)) ?_
  exact Finset.sum_congr rfl fun j _ => (weighted_apply x0 x1 j).trans (lossK_eq_lossR _ _).symm

end Cert.ReferenceIdeal.RefValue

end
-- ==== Proof.lean ====
/-
  The mean critical-voxel-weighted binary cross-entropy of a volume of logits against labels: a kernel that streams the
  volume through two 8 × 128 accumulators and a host sum, against one host sum over the whole volume.

  Per voxel both programs compute the same extended real: the cross-entropy with logits
  max(x, 0) − x·t + log(1 + e^(−|x|)), weighted by 1, plus ½ where the thresholded sigmoid misses a foreground label, plus ½
  where it fires on a background label (Voxel: the sigmoid as one operation or as 1 / (1 + e^(−x)), the masks' negation and
  their conversion to 0 / 1 spelt two ways). The kernel reshapes the volume to (2, 76800, 128), walks each half in 16 blocks
  of 4800 rows, folds a block's rows 8 at a time into an 8 × 128 partial sum and accumulates the 16 partial sums (Body,
  Accumulate); the host then adds the 2 × 8 × 128 entries from zero and divides by the 19,660,800 voxels (Result). The
  reference adds all voxels from zero and divides by the same number (RefValue). Every voxel is collected by exactly one
  accumulator entry (RowSplit), and sums of extended reals may be regrouped freely, so both results are the same mean (Mean);
  the inputs' finiteness is not needed.
  The three frames: the two kernels' are the generated frame certificates; the reference's is its generated run with the
  result dropped. The idealization rewrote no operation, so its claim is trivial.
-/
import proofs.«160333_j56169582297100_1_alg».proof.Defs
import proofs.«160333_j56169582297100_1_alg».proof.Proof.Gen.Kernel
import proofs.«160333_j56169582297100_1_alg».proof.Proof.Gen.Kernel.Skeleton
import proofs.«160333_j56169582297100_1_alg».proof.Proof.Gen.Kernel.Launch
import proofs.«160333_j56169582297100_1_alg».proof.Proof.Gen.Kernel.Points
import proofs.«160333_j56169582297100_1_alg».proof.Proof.Gen.Kernel.Frame
import proofs.«160333_j56169582297100_1_alg».proof.Proof.Gen.KernelIdeal
import proofs.«160333_j56169582297100_1_alg».proof.Proof.Gen.KernelIdeal.Skeleton
import proofs.«160333_j56169582297100_1_alg».proof.Proof.Gen.KernelIdeal.Launch
import proofs.«160333_j56169582297100_1_alg».proof.Proof.Gen.KernelIdeal.Points
import proofs.«160333_j56169582297100_1_alg».proof.Proof.Gen.KernelIdeal.Frame
import proofs.«160333_j56169582297100_1_alg».proof.Proof.Gen.ReferenceIdeal
import proofs.«160333_j56169582297100_1_alg».proof.Proof.Gen.Pre_finite_inputs
import proofs.«160333_j56169582297100_1_alg».proof.Proof.Gen.ReferenceIdeal.Run
import proofs.«160333_j56169582297100_1_alg».proof.Proof.Gen.ReferenceIdeal.Read
import Idealize.ShloMosaic.Adequacy
import Idealize.ShloMosaic.Init
import proofs.«160333_j56169582297100_1_alg».proof.Proof.Result
import proofs.«160333_j56169582297100_1_alg».proof.Proof.RefValue

noncomputable section

namespace Cert.Proof

open Idealize.ShloMosaic Idealize.SL.Sem Cert.VoxelLoss

theorem frame_kernel : Cert.frame_Kernel := fun m ρ _ => Cert.Kernel.Gen.frame m ρ

theorem frame_kernelIdeal : Cert.frame_KernelIdeal := fun m ρ _ => Cert.KernelIdeal.Gen.frame m ρ

theorem frame_reference : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end at the mean weighted loss of arguments that agree. -/
theorem algebraic : Cert.algebraic_KernelIdeal_ReferenceIdeal := by
  intro m ρ m' ρ' _ hagree
  refine ⟨fun c => meanLoss
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v34_eq, Cert.ReferenceIdeal.RefValue.result_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
